-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x64 : Shape := ⟨2, ![100000, 64]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_arg6 : FVec F S100000x64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  main_v23

def fn {F : FTy → Type} [FloatOps F] (main_arg0 : IVec S1000000 32) (main_arg1 : IVec S1000000 32) (main_arg2 : FVec F S1000000 .f32) (main_arg3 : FVec F S100000x64 .f32) (main_arg4 : FVec F S100000x64 .f32) (main_arg5 : FVec F S100000x64 .f32) (main_arg6 : FVec F S100000x64 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x64 .f32 := Host.absf main_arg5
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg6 main_v13 main_v16
-- ==== Kernel.lean ====
abbrev S1000000 : Shape := ⟨1, ![1000000]⟩
abbrev S100000x64 : Shape := ⟨2, ![100000, 64]⟩
abbrev S5000x64 : Shape := ⟨2, ![5000, 64]⟩
abbrev S_ : Shape := ⟨0, ![]⟩
abbrev S1000000x1 : Shape := ⟨2, ![1000000, 1]⟩
abbrev S1000000x64 : Shape := ⟨2, ![1000000, 64]⟩
abbrev S30000x64 : Shape := ⟨2, ![30000, 64]⟩
abbrev S70000x64 : Shape := ⟨2, ![70000, 64]⟩

abbrev nBuf : Space → Nat
  | .hbm => 27
  | .vmem => 14
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000x64, .f32⟩
  | .hbm, ⟨7, _⟩ => ⟨S100000x64, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S1000000x1, .f32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S100000x64, .f32⟩
  | .hbm, ⟨25, _⟩ => ⟨S30000x64, .f32⟩
  | .hbm, ⟨26, _⟩ => ⟨S70000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S5000x64_S5000x64 : S5000x64.ShapeCasts S5000x64
  slices_S100000x64_S30000x64_0_0 : S100000x64.Slices ![0, 0] S30000x64
  slices_S100000x64_S70000x64_30000_0 : S100000x64.Slices ![30000, 0] S70000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000 : Shape := ⟨1, ![1000000]⟩
abbrev S100000x64 : Shape := ⟨2, ![100000, 64]⟩
abbrev S1000000x1 : Shape := ⟨2, ![1000000, 1]⟩
abbrev S_ : Shape := ⟨0, ![]⟩
abbrev S1000000x64 : Shape := ⟨2, ![1000000, 64]⟩
abbrev S30000x64 : Shape := ⟨2, ![30000, 64]⟩
abbrev S70000x64 : Shape := ⟨2, ![70000, 64]⟩

abbrev nBuf : Space → Nat
  | .hbm => 34
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000x64, .f32⟩
  | .hbm, ⟨7, _⟩ => ⟨S100000x64, .f32⟩
  | .hbm, ⟨8, _⟩ => ⟨S1000000x1, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S30000x64, .f32⟩
  | .hbm, ⟨33, _⟩ => ⟨S70000x64, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S100000x64_S30000x64_0_0 : S100000x64.Slices ![0, 0] S30000x64
  slices_S100000x64_S70000x64_30000_0 : S100000x64.Slices ![30000, 0] S70000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.DiffRegion.lean ====
/-
  The first region of the idealized kernel, read as a whole array.

  The region walks the 100000 x 64 arrays `e_out` and `in_mem` in twenty blocks of 5000 rows; at block `t` its body
  subtracts the two input blocks lane by lane and the result block is written back to rows `5000 t … 5000 t + 4999`
  of the output array.  All three windows use the same block index `(t, 0)`, so block `t` of the inputs sits exactly
  where block `t` of the output sits, and the twenty blocks tile the output.  Hence, whatever the arrays hold when the
  region is entered, the output array ends as the lane-wise difference of the two input arrays.
-/
import proofs.«171605_j35003983462573_1_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.DiffRegion

open Cert.KernelIdeal Cert.KernelIdeal.Gen

variable {F : FTy → Type} [FloatOps F]
variable (V : (c : Dev nD) → (b : Ref sig .tc) → Buf (Elt F) ((c : Thread nD τ).loc b))

/-- The zero offset of a whole-block access, as a constant function. -/
theorem zero_off : (![0, 0] : Fin 2 → Nat) = fun _ => 0 := funext fun a => by fin_cases a <;> rfl

/-- Over the twenty grid points: every window's block index is `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the lane-wise difference of the two input arrays. -/
theorem flushed_diff (c : Dev nD) (t : Fin cfg0.N) :
    (dat0 V c).flushed 2 t
      = ((cfg0.win 2).blk t).view.read (Elt F) (subf (V c main_arg4) (V c main_arg5)) := by
  show (cfg0.win 2).cut (grid0.coords t) ((dat0 V c).after 2 t) = _
  rw [after0_2]
  unfold out0_2
  rw [View.canon_unit_zero zero_off]
  simp only [View.ld_unit_zero (S := S5000x64) zero_off]
  obtain ⟨e0, e1, e2, e3, e4, e5⟩ := block_index t
  funext j
  show FloatOps.subf (V c main_arg4 (((cfg0.win 0).blk t).view.emb j)) (V c main_arg5 (((cfg0.win 1).blk t).view.emb j))
    = FloatOps.subf (V c main_arg4 (((cfg0.win 2).blk t).view.emb j)) (V c main_arg5 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 64 + 1 * (j 1).val = win0_2.index t (1 : Fin 2) * 64 + 1 * (j 1).val; omega
  rw [h0, h1]

/-- An index of the output array lies in point `t`'s block iff each coordinate lies in the block's range. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Row `r` of the output lies in the block of point `r / 5000`: the twenty blocks tile the array. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := block_index t
  have ht : t.val = (i 0).val / 5000 := rfl
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array of the first region, after its twenty points: the lane-wise difference of the two arrays it read,
    as the region found them. -/
theorem diff_array (c : Dev nD) :
    (dat0 V c).arrAt 2 cfg0.N = subf (V c main_arg4) (V c main_arg5) :=
  (dat0 V c).arrAt_eq_of_cover 2 (subf (V c main_arg4) (V c main_arg5)) (fun t _ => flushed_diff V c t) covered

end Cert.KernelIdeal.DiffRegion

end
-- ==== Proof.MixRegion.lean ====
/-
  The second region of the idealized kernel, read as a whole array.

  The region walks three 100000 x 64 arrays — the aggregated messages `s`, the aggregate memory `g` and the input
  embedding `e` — in twenty blocks of 5000 rows.  At block `t` its body forms, lane by lane,
  `c₁ · (s + g) + c₂ · e` with the two splatted single-precision constants `c₁` (word 3F666666) and `c₂` (word 3DCCCCCD),
  and the result block is written back to rows `5000 t … 5000 t + 4999` of the output.  All four windows use the block
  index `(t, 0)`, so the blocks line up, and the twenty output blocks tile the output array.  Hence the output array ends
  as that same lane-wise expression of the three whole arrays, written here in the spelling a host program uses for
  it: each constant a rank-0 array broadcast to the full shape.
-/
import proofs.«171605_j35003983462573_1_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.MixRegion

open Cert.KernelIdeal Cert.KernelIdeal.Gen

variable {F : FTy → Type} [FloatOps F]
variable (V : (c : Dev nD) → (b : Ref sig .tc) → Buf (Elt F) ((c : Thread nD τ).loc b))

/-- The variance-reduced mix of whole arrays: `c₁ · (s + g) + c₂ · e`, lane by lane, each constant a broadcast scalar. -/
abbrev mix (s g e : S100000x64.Idx → Elt F .f32) : S100000x64.Idx → Elt F .f32 :=
  addf (mulf (broadcastInDim S100000x64 ![] bcast_S_S100000x64 (constant S_ .f32 0x3F666666#32)) (addf s g))
    (mulf (broadcastInDim S100000x64 ![] bcast_S_S100000x64 (constant S_ .f32 0x3DCCCCCD#32)) e)

/-- The zero offset of a whole-block access, as a constant function. -/
theorem zero_off : (![0, 0] : Fin 2 → Nat) = fun _ => 0 := funext fun a => by fin_cases a <;> rfl

/-- The body's stored value at a lane: the same expression of the three loaded blocks' lanes (the identity re-shaping of
    the first block dropped). -/
theorem payload_apply (x0 x1 x2 : Vec F S5000x64 .f32) (j : S5000x64.Idx) :
    k1_pay1 x0 x1 x2 j
      = FloatOps.addf (FloatOps.mulf (FloatOps.ofBits .f32 0x3F666666#32) (FloatOps.addf (x0 j) (x1 j)))
          (FloatOps.mulf (FloatOps.ofBits .f32 0x3DCCCCCD#32) (x2 j)) := by
  unfold k1_pay1
  rw [shapeCast_self]
  rfl

/-- Over the twenty grid points: every window's block index is `(t, 0)`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the mix of the three input arrays. -/
theorem flushed_mix (c : Dev nD) (t : Fin cfg1.N) :
    (dat1 V c).flushed 3 t
      = ((cfg1.win 3).blk t).view.read (Elt F) (mix (V c main_v13) (V c main_arg6) (V c main_arg3)) := by
  show (cfg1.win 3).cut (grid1.coords t) ((dat1 V c).after 3 t) = _
  rw [after1_3]
  unfold out1_3
  rw [View.canon_unit_zero zero_off]
  simp only [View.ld_unit_zero (S := S5000x64) zero_off]
  obtain ⟨e0, e1, e2, e3, e4, e5, e6, e7⟩ := block_index t
  funext j
  show k1_pay1 (iblk1 V c 0 t) (iblk1 V c 1 t) (iblk1 V c 2 t) j
    = FloatOps.addf (FloatOps.mulf (FloatOps.ofBits .f32 0x3F666666#32)
          (FloatOps.addf (V c main_v13 (((cfg1.win 3).blk t).view.emb j)) (V c main_arg6 (((cfg1.win 3).blk t).view.emb j))))
        (FloatOps.mulf (FloatOps.ofBits .f32 0x3DCCCCCD#32) (V c main_arg3 (((cfg1.win 3).blk t).view.emb j)))
  rw [payload_apply]
  show FloatOps.addf (FloatOps.mulf (FloatOps.ofBits .f32 0x3F666666#32)
          (FloatOps.addf (V c main_v13 (((cfg1.win 0).blk t).view.emb j)) (V c main_arg6 (((cfg1.win 1).blk t).view.emb j))))
        (FloatOps.mulf (FloatOps.ofBits .f32 0x3DCCCCCD#32) (V c main_arg3 (((cfg1.win 2).blk t).view.emb j)))
    = _
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 64 + 1 * (j 1).val = win1_3.index t (1 : Fin 2) * 64 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 64 + 1 * (j 1).val = win1_3.index t (1 : Fin 2) * 64 + 1 * (j 1).val; omega
  rw [h0, h1, h2]

/-- An index of the output array lies in point `t`'s block iff each coordinate lies in the block's range. -/
theorem mem_block (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v14).slice (win1_3.rect t)).set ↔ _
  rw [View.set_slice_whole, Rect.mem_set_unit]
  exact Iff.rfl

/-- Row `r` of the output lies in the block of point `r / 5000`: the twenty blocks tile the array. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, e6, e7⟩ := block_index t
  have ht : t.val = (i 0).val / 5000 := rfl
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-- The output array of the second region, after its twenty points: the mix of the three arrays it read, as the region
    found them. -/
theorem mix_array (c : Dev nD) :
    (dat1 V c).arrAt 3 cfg1.N = mix (V c main_v13) (V c main_arg6) (V c main_arg3) :=
  (dat1 V c).arrAt_eq_of_cover 3 (mix (V c main_v13) (V c main_arg6) (V c main_arg3)) (fun t _ => flushed_mix V c t) covered

end Cert.KernelIdeal.MixRegion

end
-- ==== Proof.Fold.lean ====
/-
  The contents of the two result buffers at the end of the idealized kernel's run, as one function of the launch memory.

  The run passes five boundaries.  At the exit of the first region its output array is the lane-wise difference
  `e_out − in_mem` (the first region read as a whole array).  The host stretch between the regions then computes, from that
  array and the three edge arrays, the sparse product: source rows gathered by the (wrapped) column indices, scaled by
  the edge values, and summed into destination rows by a scatter-add from the zero array; it is carried here as ONE
  function `spmm` of its four operands and never opened.  The second region mixes that aggregate with the aggregate
  memory and the input embedding (the second region read as a whole array), and the two closing slices cut rows
  `0 … 29999` and `30000 … 99999` out of the mix.  No step writes an argument array, so every operand is read back to the
  launch memory.
-/
import proofs.«171605_j35003983462573_1_alg».proof.Proof.DiffRegion
import proofs.«171605_j35003983462573_1_alg».proof.Proof.MixRegion
import Idealize.ShloMosaic.Lib.StableHlo.Run

noncomputable section

open Idealize.ShloMosaic Idealize.ShloMosaic.TcCoe Idealize.SL.Sem Idealize.ShloMosaic.StableHlo

namespace Cert.KernelIdeal.Fold

open Cert.KernelIdeal Cert.KernelIdeal.Gen

variable {F : FTy → Type} [FloatOps F]

/-- The sparse product of the host stretch: `segment_sum (vals · x[cols], rows)` — the column indices wrapped when
    negative, the source rows of `x` gathered, each scaled by its edge value, and scatter-added into the zero array at
    the row indices. -/
abbrev spmm (rows cols : (⟨S1000000, .i32⟩ : BufTy).Contents (Elt F)) (vals : (⟨S1000000, .f32⟩ : BufTy).Contents (Elt F))
    (x : (⟨S100000x64, .f32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S100000x64_S1000000x1_S1000000x64_1_0_n_n_0_1_164 x
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 100000#32))) cols))))

/-- The whole new embedding before it is sliced: the mix of the sparse product of `e_out − in_mem` with the aggregate
    memory and the input embedding. -/
abbrev newEmbedding (rows cols : (⟨S1000000, .i32⟩ : BufTy).Contents (Elt F)) (vals : (⟨S1000000, .f32⟩ : BufTy).Contents (Elt F))
    (e_in e_out in_mem in_aggr : (⟨S100000x64, .f32⟩ : BufTy).Contents (Elt F)) : (⟨S100000x64, .f32⟩ : BufTy).Contents (Elt F) :=
  MixRegion.mix (spmm rows cols vals (subf e_out in_mem)) in_aggr e_in

variable (m : (ℓ : Loc nD τ sig) → Buf (Elt F) ℓ) (ρ : Dev nD → PrngReg)

/-- At the first region's exit its output array is `e_out − in_mem` of the launch memory. -/
theorem diff_at_exit (c : Dev nD) :
    W1 m ρ c (Proc.devRef .tc main_v0)
      = subf (m ((c.tc : Thread nD τ).loc main_arg4)) (m ((c.tc : Thread nD τ).loc main_arg5)) :=
  (W1_arr m ρ c 2).trans (DiffRegion.diff_array (V0 m ρ) c)

/-- The first region leaves the arrays it does not stage as launched. -/
theorem W1_arg0 (c : Dev nD) : W1 m ρ c (Proc.devRef .tc main_arg0) = m ((c.tc : Thread nD τ).loc main_arg0) :=
  W1_of_ne m ρ c main_arg0 (by decide)
theorem W1_arg1 (c : Dev nD) : W1 m ρ c (Proc.devRef .tc main_arg1) = m ((c.tc : Thread nD τ).loc main_arg1) :=
  W1_of_ne m ρ c main_arg1 (by decide)
theorem W1_arg2 (c : Dev nD) : W1 m ρ c (Proc.devRef .tc main_arg2) = m ((c.tc : Thread nD τ).loc main_arg2) :=
  W1_of_ne m ρ c main_arg2 (by decide)
theorem W1_arg3 (c : Dev nD) : W1 m ρ c (Proc.devRef .tc main_arg3) = m ((c.tc : Thread nD τ).loc main_arg3) :=
  W1_of_ne m ρ c main_arg3 (by decide)
theorem W1_arg6 (c : Dev nD) : W1 m ρ c (Proc.devRef .tc main_arg6) = m ((c.tc : Thread nD τ).loc main_arg6) :=
  W1_of_ne m ρ c main_arg6 (by decide)

/-- At the second region's entry the aggregate is the sparse product of the difference. -/
theorem aggregate_at_entry (c : Dev nD) :
    W2 m ρ c (Proc.devRef .tc main_v13)
      = spmm (m ((c.tc : Thread nD τ).loc main_arg0)) (m ((c.tc : Thread nD τ).loc main_arg1)) (m ((c.tc : Thread nD τ).loc main_arg2))
          (subf (m ((c.tc : Thread nD τ).loc main_arg4)) (m ((c.tc : Thread nD τ).loc main_arg5))) := by
  have e : W2 m ρ c (Proc.devRef .tc main_v13)
      = spmm (W1 m ρ c (Proc.devRef .tc main_arg0)) (W1 m ρ c (Proc.devRef .tc main_arg1)) (W1 m ρ c (Proc.devRef .tc main_arg2))
          (W1 m ρ c (Proc.devRef .tc main_v0)) := by
    show StableHlo.after hostOps1 (W1 m ρ c) (Proc.devRef .tc main_v13) = _
    after_results
  rw [e, diff_at_exit, W1_arg0, W1_arg1, W1_arg2]

/-- The host stretch between the regions writes neither the aggregate memory nor the input embedding. -/
theorem W2_arg6 (c : Dev nD) : W2 m ρ c (Proc.devRef .tc main_arg6) = m ((c.tc : Thread nD τ).loc main_arg6) := by
  have e : W2 m ρ c (Proc.devRef .tc main_arg6) = W1 m ρ c (Proc.devRef .tc main_arg6) := by
    show StableHlo.after hostOps1 (W1 m ρ c) (Proc.devRef .tc main_arg6) = _
    after_results
  rw [e, W1_arg6]
theorem W2_arg3 (c : Dev nD) : W2 m ρ c (Proc.devRef .tc main_arg3) = m ((c.tc : Thread nD τ).loc main_arg3) := by
  have e : W2 m ρ c (Proc.devRef .tc main_arg3) = W1 m ρ c (Proc.devRef .tc main_arg3) := by
    show StableHlo.after hostOps1 (W1 m ρ c) (Proc.devRef .tc main_arg3) = _
    after_results
  rw [e, W1_arg3]

/-- At the second region's exit its output array is the whole new embedding. -/
theorem embedding_at_exit (c : Dev nD) :
    W3 m ρ c (Proc.devRef .tc main_v14)
      = newEmbedding (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have e : W3 m ρ c (Proc.devRef .tc main_v14)
      = MixRegion.mix (W2 m ρ c (Proc.devRef .tc main_v13)) (W2 m ρ c (Proc.devRef .tc main_arg6)) (W2 m ρ c (Proc.devRef .tc main_arg3)) :=
    (W3_arr m ρ c 3).trans (MixRegion.mix_array (V2 m ρ) c)
  rw [e, aggregate_at_entry, W2_arg6, W2_arg3]

/-- The first result: rows `0 … 29999` of the new embedding. -/
theorem users_at_end (c : Dev nD) :
    W4 m ρ c (Proc.devRef .tc main_v15)
      = extractStridedSlice S30000x64 ![0, 0]
          (newEmbedding (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))) slices_S100000x64_S30000x64_0_0 := by
  have e : W4 m ρ c (Proc.devRef .tc main_v15)
      = extractStridedSlice S30000x64 ![0, 0] (W3 m ρ c (Proc.devRef .tc main_v14)) slices_S100000x64_S30000x64_0_0 := by
    show StableHlo.after hostOps2 (W3 m ρ c) (Proc.devRef .tc main_v15) = _
    after_results
  rw [e, embedding_at_exit]

/-- The second result: rows `30000 … 99999` of the new embedding. -/
theorem items_at_end (c : Dev nD) :
    W4 m ρ c (Proc.devRef .tc main_v16)
      = extractStridedSlice S70000x64 ![30000, 0]
          (newEmbedding (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))) slices_S100000x64_S70000x64_30000_0 := by
  have e : W4 m ρ c (Proc.devRef .tc main_v16)
      = extractStridedSlice S70000x64 ![30000, 0] (W3 m ρ c (Proc.devRef .tc main_v14)) slices_S100000x64_S70000x64_30000_0 := by
    show StableHlo.after hostOps2 (W3 m ρ c) (Proc.devRef .tc main_v16) = _
    after_results
  rw [e, embedding_at_exit]

end Cert.KernelIdeal.Fold

end
-- ==== Proof.lean ====
/-
  The certificate of the variance-reduced message-passing layer.

  Kernel and reference compute the same new embedding,
      0.9 · (A (e_out − in_mem) + in_aggr_mem) + 0.1 · e_in,
  where `A x = segment_sum (vals · x[cols], rows)` is the sparse product over the edge list, and return its rows
  `0 … 29999` and `30000 … 99999`.  The reference does everything with whole-array host operations.  The kernel does the
  subtraction and the final mix in two blocked regions (twenty blocks of 5000 rows each) and the sparse product on the
  host between them, with the very same gather, scaling and scatter-add the reference uses.

  Read over the extended reals the two programs are therefore the same expression, operation for operation: a blocked
  lane-wise operation whose blocks tile the array is the whole-array lane-wise operation, a splatted constant is the
  broadcast of the same word, and the sparse product is one shared function of its four operands.  No algebraic law is
  needed — not even commutativity —, so the finiteness of the inputs is never used.

  The frames of the two kernel programs are the generated ones; the reference's frame is its generated run with the
  results dropped; the idealization rewrote nothing, so its conjunct is `True`.
-/
import proofs.«171605_j35003983462573_1_alg».proof.Defs
import proofs.«171605_j35003983462573_1_alg».proof.Proof.Gen.Kernel
import proofs.«171605_j35003983462573_1_alg».proof.Proof.Gen.Kernel.Skeleton
import proofs.«171605_j35003983462573_1_alg».proof.Proof.Gen.Kernel.Launch
import proofs.«171605_j35003983462573_1_alg».proof.Proof.Gen.Kernel.Points
import proofs.«171605_j35003983462573_1_alg».proof.Proof.Gen.Kernel.Frame
import proofs.«171605_j35003983462573_1_alg».proof.Proof.Gen.KernelIdeal
import proofs.«171605_j35003983462573_1_alg».proof.Proof.Gen.KernelIdeal.Skeleton
import proofs.«171605_j35003983462573_1_alg».proof.Proof.Gen.KernelIdeal.Launch
import proofs.«171605_j35003983462573_1_alg».proof.Proof.Gen.KernelIdeal.Points
import proofs.«171605_j35003983462573_1_alg».proof.Proof.Gen.KernelIdeal.Frame
import proofs.«171605_j35003983462573_1_alg».proof.Proof.Gen.ReferenceIdeal
import proofs.«171605_j35003983462573_1_alg».proof.Proof.Gen.Pre_finite_inputs
import proofs.«171605_j35003983462573_1_alg».proof.Proof.Gen.ReferenceIdeal.Run
import proofs.«171605_j35003983462573_1_alg».proof.Proof.KernelRun
import proofs.«171605_j35003983462573_1_alg».proof.Proof.Fold
import Idealize.ShloMosaic.Adequacy
import Idealize.ShloMosaic.Init

noncomputable section

namespace Cert.Proof

open Idealize.ShloMosaic Idealize.ShloMosaic.TcCoe Idealize.SL.Sem

/-! ## The idealized kernel's run, with its results named -/

section KernelValue

open Cert.KernelIdeal Cert.KernelIdeal.Gen Cert.KernelIdeal.Fold

variable {F : FTy → Type} [FloatOps F]
variable (m : (ℓ : Loc nD τ sig) → Buf (Elt F) ℓ) (ρ : Dev nD → PrngReg)

/-- Every weakly fair execution of the idealized kernel terminates with the two results at the two row ranges of the new
    embedding of the launch memory, and the arguments unchanged. -/
theorem kernel_values : θ_run defs (onTc (τ := τ) (main (F := F))) ⟨m, fun _ => 0, ρ⟩ (fun r => ∀ c : Dev nD,
      r.2.mem ((c.tc : Thread nD τ).loc main_v15)
        = extractStridedSlice S30000x64 ![0, 0]
            (newEmbedding (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))) slices_S100000x64_S30000x64_0_0
      ∧ r.2.mem ((c.tc : Thread nD τ).loc main_v16)
        = extractStridedSlice S70000x64 ![30000, 0]
            (newEmbedding (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6))) slices_S100000x64_S70000x64_30000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨(h c).1.trans (users_at_end m ρ c), (h c).2.1.trans (items_at_end m ρ c), (h c).2.2⟩)
    (Cert.KernelIdeal.Results.run_results m ρ)

end KernelValue

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: its run terminates with the arguments unchanged. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments both programs end with the same two arrays: the reference's composed
    term, with its arguments rewritten to the kernel's, is the kernel's term — the same operations in the same order. -/
theorem algebraic : Cert.algebraic_KernelIdeal_ReferenceIdeal := by
  intro m ρ m' ρ' _ hagree
  refine ⟨_, _, kernel_values (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [a0, a1, a2, a3, a4, a5, a6]
    rfl
  · obtain ⟨a0, a1, a2, a3, a4, a5, a6⟩ := hagree c
    rw [a0, a1, a2, a3, a4, a5, a6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
